-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel

variable [Facts]

def fn {F : FTy → Type} [FloatOps F] (main_arg0 : FVec F S4x64x512x512 .f32) (main_arg1 : FVec F S4x64x512x512 .f32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_v4 : FVec F S4x64x512x512 .f32 := Host.absf main_arg1
  let main_cst_0 : FVec F S_ .f32 := constant S_ .f32 0x7F800000#32
  let main_v5 : FVec F S4x64x512x512 .f32 := broadcastInDim S4x64x512x512 ![] bcast_S_S4x64x512x512 main_cst_0
  let main_v6 : IVec S4x64x512x512 1 := cmpf .olt main_v4 main_v5
  let main_c_1 : IVec S_ 1 := constantI S_ 1 1#1
  let main_v7 : IVec S_ 1 := (fun x v => Host.reduce IntOp.andi x v reducesTo_S4x64x512x512_S_d0_1_2_3 h_S_) main_v6 main_c_1
  let main_v8 : IVec S_ 1 := andi main_v3 main_v7
  main_v8
-- ==== Kernel.lean ====
abbrev S4x64x512x512 : Shape := ⟨4, ![4, 64, 512, 512]⟩
abbrev S4x64 : Shape := ⟨2, ![4, 64]⟩
abbrev S4x64x32x128 : Shape := ⟨4, ![4, 64, 32, 128]⟩
abbrev S4x64x32 : Shape := ⟨3, ![4, 64, 32]⟩
abbrev S_ : Shape := ⟨0, ![]⟩
abbrev S4 : Shape := ⟨1, ![4]⟩

abbrev nBuf : Space → Nat
  | .hbm => 15
  | .vmem => 5
  | .smem => 0
  | _ => 0

abbrev bufTy : (tb : Table) → Fin (tcTables nBuf tb) → BufTy
  | .hbm, ⟨0, _⟩ => ⟨S4x64x512x512, .f32⟩
  | .hbm, ⟨1, _⟩ => ⟨S4x64x512x512, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S_, .f32⟩
  | .hbm, ⟨6, _⟩ => ⟨S4x64, .f32⟩
  | .hbm, ⟨7, _⟩ => ⟨S4x64, .f32⟩
  | .hbm, ⟨8, _⟩ => ⟨S_, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S_, .f32⟩
  | .local _ .vmem, ⟨0, _⟩ => ⟨S4x64x32x128, .f32⟩
  | .local _ .vmem, ⟨1, _⟩ => ⟨S4x64x32x128, .f32⟩
  | .local _ .vmem, ⟨2, _⟩ => ⟨S4x64x32x128, .f32⟩
  | .local _ .vmem, ⟨3, _⟩ => ⟨S4x64x32x128, .f32⟩
  | .local _ .vmem, ⟨4, _⟩ => ⟨S4x64, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S4x64_S4x64_0_0 : ∀ a, (![0, 0] : Fin 2 → Nat) a + S4x64.size a ≤ S4x64.size a
  h_S4x64 : 0 < S4x64.numel
  inb_S4x64x32x128_S4x64x32x128_0_0_0_0 : ∀ a, (![0, 0, 0, 0] : Fin 4 → Nat) a + S4x64x32x128.size a ≤ S4x64x32x128.size a
  h_S4x64x32x128 : 0 < S4x64x32x128.numel
  reduces_S4x64x32x128_S4x64x32 : S4x64x32x128.Reduces [3] S4x64x32
  reduces_S4x64x32_S4x64 : S4x64x32.Reduces [2] S4x64
  shapeCasts_S4x64_S4x64 : S4x64.ShapeCasts S4x64
  bcast_S_S4x64 : S_.BroadcastsInDim S4x64 (![] : Fin 0 → Fin S4x64.rank)
  reducesTo_S4x64_S4_d1 : S4x64.ReducesTo [1] S4
  h_S_ : 0 < S_.numel
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x32x128.size a ≤ S4x64x512x512.size a
  hwx0_0 : ∀ i : grid0.Coords, EltTy.bits .f32 = 32 ∨ (Rect.block (s := S4x64x512x512) S4x64x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x32x128.size a ≤ S4x64x512x512.size a
  hwx0_1 : ∀ i : grid0.Coords, EltTy.bits .f32 = 32 ∨ (Rect.block (s := S4x64x512x512) S4x64x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)

variable [Facts₀]

abbrev win0_0 : Pipeline.Window sig grid0 :=
  Pipeline.Window.ofSpec (Memref.whole main_arg0) S4x64x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x512x512 : Shape := ⟨4, ![4, 64, 512, 512]⟩
abbrev S_ : Shape := ⟨0, ![]⟩
abbrev S4x64 : Shape := ⟨2, ![4, 64]⟩
abbrev S4 : Shape := ⟨1, ![4]⟩

abbrev nBuf : Space → Nat
  | .hbm => 17
  | .vmem => 0
  | .smem => 0
  | _ => 0

abbrev bufTy : (tb : Table) → Fin (tcTables nBuf tb) → BufTy
  | .hbm, ⟨0, _⟩ => ⟨S4x64x512x512, .f32⟩
  | .hbm, ⟨1, _⟩ => ⟨S4x64x512x512, .f32⟩
  | .hbm, ⟨2, _⟩ => ⟨S4x64x512x512, .f32⟩
  | .hbm, ⟨3, _⟩ => ⟨S_, .f32⟩
  | .hbm, ⟨4, _⟩ => ⟨S4x64, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S_, .f32⟩
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  reducesTo_S4x64x512x512_S4x64_d2_3 : S4x64x512x512.ReducesTo [2, 3] S4x64
  h_S_ : 0 < S_.numel
  bcast_S_S4x64 : S_.BroadcastsInDim S4x64 (![] : Fin 0 → Fin S4x64.rank)
  reducesTo_S4x64_S4_d1 : S4x64.ReducesTo [1] S4
  bcast_S_S4 : S_.BroadcastsInDim S4 (![] : Fin 0 → Fin S4.rank)
  reducesTo_S4_S_d0 : S4.ReducesTo [0] S_

variable [Facts₀]

class Facts : Prop extends Facts₀ where

variable [Facts]
-- ==== Proof.LibLastAxis.lean ====
/-
  Layout operations on the LAST axis of a rank-4 array, read at an index given by coordinates.

  A cell-wise program over an array shaped [n, a, b, c] (a batch of a × b grids of cells, c channels per cell)
  slices channels off the last axis, drops or adds a trailing unit axis, stacks four one-channel arrays along the
  last axis, and sums over the last axis. Each lemma below reads one such operation at an index written
  ix3 / ix4 of its coordinates as the operand at coordinates: the channel coordinate shifted by the slice's
  offset, the unit coordinate inserted or dropped, the piece chosen by the channel, the sum over the channel.
  They hold at every extent, so one statement serves a block of the array and the whole array.
-/
import Idealize.ShloMosaic.Lib.ValueIdx
import Idealize.ShloMosaic.Lib.ValueLayout
import Idealize.ShloMosaic.Lib.Pipeline.Value
import Idealize.ShloMosaic.PureOps.Ideal.Laws

namespace LastAxis

open Idealize.ShloMosaic Idealize.ShloMosaic.ValueIdx

variable {α : Type}

/-- Channel o + k of a cell with c channels, for a slice of m channels from offset o. -/
abbrev chan {c m : Nat} (o : Nat) (h : o + m ≤ c) (k : Fin m) : Fin c := ⟨o + k.val, by have := k.isLt; omega⟩

/-- A rank-4 array cut along its last axis from o reads, at (n, a, b, k), the source at (n, a, b, o + k). -/
theorem slice4_last_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (e : Fin n2) (k : Fin m) :
    extractStridedSlice ⟨4, ![n0, n1, n2, m]⟩ ![0, 0, 0, o] X h (ix4 a b e k)
      = X (ix4 a b e (chan o (h.2 3) k)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => rfl)

/-- An [n, a, b, 1] array cast to [n, a, b] reads, at (i, j, k), the operand at (i, j, k, 0). -/
theorem shapeCast_abc1_abc_apply {n0 n1 n2 : Nat} (x : (⟨4, ![n0, n1, n2, 1]⟩ : Shape).Idx → α)
    (h : (⟨4, ![n0, n1, n2, 1]⟩ : Shape).ShapeCasts ⟨3, ![n0, n1, n2]⟩) (i : Fin n0) (j : Fin n1) (k : Fin n2) :
    shapeCast ⟨3, ![n0, n1, n2]⟩ x h (ix3 i j k) = x (ix4 i j k (0 : Fin 1)) :=
  shapeCast_apply x h _ _ (by
    rw [Shape.rowMajor_val_four, Shape.rowMajor_val_three]
    show ((i.val * n1 + j.val) * n2 + k.val) * 1 + 0 = (i.val * n1 + j.val) * n2 + k.val
    rw [Nat.mul_one, Nat.add_zero])

/-- An [n, a, b] array cast to [n, a, b, 1] reads, at (i, j, k, u), the operand at (i, j, k), whatever the unit
    coordinate u. -/
theorem shapeCast_abc_abc1_apply {n0 n1 n2 : Nat} (x : (⟨3, ![n0, n1, n2]⟩ : Shape).Idx → α)
    (h : (⟨3, ![n0, n1, n2]⟩ : Shape).ShapeCasts ⟨4, ![n0, n1, n2, 1]⟩) (i : Fin n0) (j : Fin n1) (k : Fin n2) (u : Fin 1) :
    shapeCast ⟨4, ![n0, n1, n2, 1]⟩ x h (ix4 i j k u) = x (ix3 i j k) :=
  shapeCast_apply x h _ _ (by
    have hu : u.val = 0 := by omega
    rw [Shape.rowMajor_val_four, Shape.rowMajor_val_three]
    show (i.val * n1 + j.val) * n2 + k.val = ((i.val * n1 + j.val) * n2 + k.val) * 1 + u.val
    rw [hu, Nat.mul_one, Nat.add_zero])

/-- One of four values, chosen by a channel in 0 … 3. -/
def pick4 {β : Type} (c : Fin 4) (a0 a1 a2 a3 : β) : β :=
  match c with | ⟨0, _⟩ => a0 | ⟨1, _⟩ => a1 | ⟨2, _⟩ => a2 | ⟨3, _⟩ => a3

/-- An [n, a, b] array broadcast into [n, a, b, 1] along its own three axes reads, at (i, j, k, u), the operand at
    (i, j, k). The three extents are not one, so that no axis of the operand is stretched. -/
theorem broadcastInDim_abc_abc1_apply {n0 n1 n2 : Nat} (h0 : n0 ≠ 1) (h1 : n1 ≠ 1) (h2 : n2 ≠ 1)
    (x : (⟨3, ![n0, n1, n2]⟩ : Shape).Idx → α)
    (h : (⟨3, ![n0, n1, n2]⟩ : Shape).BroadcastsInDim ⟨4, ![n0, n1, n2, 1]⟩ ![0, 1, 2])
    (i : Fin n0) (j : Fin n1) (k : Fin n2) (u : Fin 1) :
    broadcastInDim ⟨4, ![n0, n1, n2, 1]⟩ ![0, 1, 2] h x (ix4 i j k u) = x (ix3 i j k) :=
  broadcastInDim_apply _ h x _ _ (fun a => by
    match a with
    | ⟨0, _⟩ => show i.val = if n0 = 1 then 0 else i.val; rw [if_neg h0]
    | ⟨1, _⟩ => show j.val = if n1 = 1 then 0 else j.val; rw [if_neg h1]
    | ⟨2, _⟩ => show k.val = if n2 = 1 then 0 else k.val; rw [if_neg h2])

/-- Four one-channel arrays stacked along the last axis read, at (i, j, k, c), the c-th of them at (i, j, k, 0). -/
theorem concatenate_units4_apply {n0 n1 n2 : Nat} (x0 x1 x2 x3 : (⟨4, ![n0, n1, n2, 1]⟩ : Shape).Idx → α)
    (h : Shape.Concatenates
      (([⟨⟨4, ![n0, n1, n2, 1]⟩, x0⟩, ⟨⟨4, ![n0, n1, n2, 1]⟩, x1⟩, ⟨⟨4, ![n0, n1, n2, 1]⟩, x2⟩, ⟨⟨4, ![n0, n1, n2, 1]⟩, x3⟩] :
        List ((s : Shape) × (s.Idx → α))).map (·.1)) ⟨4, ![n0, n1, n2, 4]⟩ 3)
    (i : Fin n0) (j : Fin n1) (k : Fin n2) (c : Fin 4) :
    concatenate ⟨4, ![n0, n1, n2, 4]⟩ 3
        [⟨⟨4, ![n0, n1, n2, 1]⟩, x0⟩, ⟨⟨4, ![n0, n1, n2, 1]⟩, x1⟩, ⟨⟨4, ![n0, n1, n2, 1]⟩, x2⟩, ⟨⟨4, ![n0, n1, n2, 1]⟩, x3⟩] h
        (ix4 i j k c)
      = pick4 c (x0 (ix4 i j k 0)) (x1 (ix4 i j k 0)) (x2 (ix4 i j k 0)) (x3 (ix4 i j k 0)) := by
  match c with
  | ⟨0, _⟩ =>
    exact concatenate_apply_piece 3 _ h _ 0 (by show (0 : Nat) < 4; omega) _ x0 rfl rfl 0 rfl (ix4 i j k 0)
      (fun b hb => by match b with | ⟨0, _⟩ => rfl | ⟨1, _⟩ => rfl | ⟨2, _⟩ => rfl | ⟨3, _⟩ => exact absurd rfl hb) rfl
  | ⟨1, _⟩ =>
    exact concatenate_apply_piece 3 _ h _ 1 (by show (1 : Nat) < 4; omega) _ x1 rfl rfl 1 rfl (ix4 i j k 0)
      (fun b hb => by match b with | ⟨0, _⟩ => rfl | ⟨1, _⟩ => rfl | ⟨2, _⟩ => rfl | ⟨3, _⟩ => exact absurd rfl hb) rfl
  | ⟨2, _⟩ =>
    exact concatenate_apply_piece 3 _ h _ 2 (by show (2 : Nat) < 4; omega) _ x2 rfl rfl 2 rfl (ix4 i j k 0)
      (fun b hb => by match b with | ⟨0, _⟩ => rfl | ⟨1, _⟩ => rfl | ⟨2, _⟩ => rfl | ⟨3, _⟩ => exact absurd rfl hb) rfl
  | ⟨3, _⟩ =>
    exact concatenate_apply_piece 3 _ h _ 3 (by show (3 : Nat) < 4; omega) _ x3 rfl rfl 3 rfl (ix4 i j k 0)
      (fun b hb => by match b with | ⟨0, _⟩ => rfl | ⟨1, _⟩ => rfl | ⟨2, _⟩ => rfl | ⟨3, _⟩ => exact absurd rfl hb) rfl

/-- At the extended reals an f32 sum over the last axis of a rank-4 array, from the zero word, reads, at (i, j, k),
    the sum over the channel. (The two proof arguments are typed as a printed program's are: the format fact, and
    the zero word equal to itself.) -/
theorem multiReduction_add_last4_apply {n0 n1 n2 n3 : Nat} (src : FVec Ideal ⟨4, ![n0, n1, n2, n3]⟩ .f32)
    (h : (⟨4, ![n0, n1, n2, n3]⟩ : Shape).Reduces [3] ⟨3, ![n0, n1, n2]⟩)
    (hφ : FKind.Formats .f32) (hacc : (0x00000000#32 : BitVec 32) = 0x00000000#32) (i : Fin n0) (j : Fin n1) (k : Fin n2) :
    multiReduction .add [3] ⟨3, ![n0, n1, n2]⟩ src 0x00000000#32 h hφ hacc (ix3 i j k) = ∑ c : Fin n3, src (ix4 i j k c) := by
  refine (Ideal.multiReduction_add_single src 0x00000000#32 h hφ hacc (ix3 i j k)).trans ?_
  refine Finset.sum_congr rfl fun c _ => congrArg src (funext fun a => Fin.ext ?_)
  match a with | ⟨0, _⟩ => rfl | ⟨1, _⟩ => rfl | ⟨2, _⟩ => rfl | ⟨3, _⟩ => rfl

/-- … over the last axis of a rank-3 array, at (i, j). -/
theorem multiReduction_add_last3_apply {n0 n1 n2 : Nat} (src : FVec Ideal ⟨3, ![n0, n1, n2]⟩ .f32)
    (h : (⟨3, ![n0, n1, n2]⟩ : Shape).Reduces [2] ⟨2, ![n0, n1]⟩)
    (hφ : FKind.Formats .f32) (hacc : (0x00000000#32 : BitVec 32) = 0x00000000#32) (i : Fin n0) (j : Fin n1) :
    multiReduction .add [2] ⟨2, ![n0, n1]⟩ src 0x00000000#32 h hφ hacc (ix2 i j) = ∑ c : Fin n2, src (ix3 i j c) := by
  refine (Ideal.multiReduction_add_single src 0x00000000#32 h hφ hacc (ix2 i j)).trans ?_
  refine Finset.sum_congr rfl fun c _ => congrArg src (funext fun a => Fin.ext ?_)
  match a with | ⟨0, _⟩ => rfl | ⟨1, _⟩ => rfl | ⟨2, _⟩ => rfl

/-- … over the last axis of a matrix, at i. -/
theorem multiReduction_add_last2_apply {n0 n1 : Nat} (src : FVec Ideal ⟨2, ![n0, n1]⟩ .f32)
    (h : (⟨2, ![n0, n1]⟩ : Shape).Reduces [1] ⟨1, ![n0]⟩)
    (hφ : FKind.Formats .f32) (hacc : (0x00000000#32 : BitVec 32) = 0x00000000#32) (i : Fin n0) :
    multiReduction .add [1] ⟨1, ![n0]⟩ src 0x00000000#32 h hφ hacc (ix1 i) = ∑ c : Fin n1, src (ix2 i c) := by
  refine (Ideal.multiReduction_add_single src 0x00000000#32 h hφ hacc (ix1 i)).trans ?_
  refine Finset.sum_congr rfl fun c _ => congrArg src (funext fun a => Fin.ext ?_)
  match a with | ⟨0, _⟩ => rfl | ⟨1, _⟩ => rfl

/-- The host's sum over the last axis of a rank-4 array, at the extended reals, at (i, j, k): the initial value plus
    the sum over the channel. -/
theorem hostReduceAdd_last4_apply {n0 n1 n2 n3 : Nat} (x : (⟨4, ![n0, n1, n2, n3]⟩ : Shape).Idx → EReal) (init : EReal)
    (h' : (⟨4, ![n0, n1, n2, n3]⟩ : Shape).ReducesTo [3] ⟨3, ![n0, n1, n2]⟩)
    (h : (⟨4, ![n0, n1, n2, n3]⟩ : Shape).Reduces [3] ⟨3, ![n0, n1, n2]⟩) (i : Fin n0) (j : Fin n1) (k : Fin n2) :
    Ideal.hostReduceAdd h' x init (ix3 i j k) = init + ∑ c : Fin n3, x (ix4 i j k c) := by
  rw [Ideal.hostReduceAdd_single h' h]
  refine congrArg (init + ·) (Finset.sum_congr rfl fun c _ => congrArg x (funext fun a => Fin.ext ?_))
  match a with | ⟨0, _⟩ => rfl | ⟨1, _⟩ => rfl | ⟨2, _⟩ => rfl | ⟨3, _⟩ => rfl

/-- The host's f32 sum over the last axis of a rank-4 array, as a program spells it (an initial scalar given as an
    array of one element), at (i, j, k): the initial value plus the sum over the channel. -/
theorem Host_reduceAdd_last4_apply {n0 n1 n2 n3 : Nat} {u : Shape} (x : FVec Ideal ⟨4, ![n0, n1, n2, n3]⟩ .f32)
    (init : u.Idx → Ideal .f32) (h' : (⟨4, ![n0, n1, n2, n3]⟩ : Shape).ReducesTo [3] ⟨3, ![n0, n1, n2]⟩)
    (hu : 0 < u.numel) (i : Fin n0) (j : Fin n1) (k : Fin n2) :
    Host.reduceAdd x init h' hu (ix3 i j k) = init (Shape.Idx.first hu) + ∑ c : Fin n3, x (ix4 i j k c) := by
  simp only [Host.reduceAdd, Ideal.hostReduceAdd_def]
  exact hostReduceAdd_last4_apply x _ h' ⟨h'.1, Nat.zero_lt_succ 2, h'.2⟩ i j k

/-- A scalar broadcast into any shape reads the scalar. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- The host's quotient and root, entry by entry, at the extended reals. -/
theorem Host_divf_apply {s : Shape} {φ : FTy} (a b : FVec Ideal s φ) (i : s.Idx) : Host.divf a b i = Ideal.div (a i) (b i) := rfl
theorem Host_sqrt_apply {s : Shape} {φ : FTy} (a : FVec Ideal s φ) (i : s.Idx) : Host.sqrt a i = Ideal.sqrt (a i) := rfl
/-- A kernel's root, entry by entry, at the extended reals. -/
theorem sqrt_apply {s : Shape} {φ : FTy} (a : FVec Ideal s φ) (i : s.Idx) : sqrt a i = Ideal.sqrt (a i) := rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end LastAxis
-- ==== Proof.BodyStep.lean ====
/-
  What one grid point does to the accumulator.

  The kernel keeps one [4, 64] accumulator in place across the whole 16 × 4 grid. At a point it loads a [4, 64, 32, 128]
  tile of each input, subtracts them cell by cell, sums the 128 columns and then the 32 rows of the tile, and adds the
  resulting [4, 64] tile sum to the accumulator; at the first point only it first sets the accumulator to zero, so there
  the tile sum is added to zero. Read over the extended reals, entry (l, b) of what a point leaves is

      acc (l, b) + Σ_{h < 32} Σ_{w < 128} ( x0 (l, b, h, w) − x1 (l, b, h, w) ).
-/
import proofs.«105375_j44487271252553_1_alg».proof.Proof.Gen.KernelIdeal.Frame
import proofs.«105375_j44487271252553_1_alg».proof.Proof.LibLastAxis
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem Idealize.ShloMosaic.ValueIdx

namespace Cert.KernelIdeal.Accum

open Cert.KernelIdeal Cert.KernelIdeal.Gen

variable {F : FTy → Type} [FloatOps F]

theorem origin2 : (![0, 0] : Fin 2 → Nat) = fun _ => 0 := funext fun a => by fin_cases a <;> rfl
theorem origin4 : (![0, 0, 0, 0] : Fin 4 → Nat) = fun _ => 0 := funext fun a => by fin_cases a <;> rfl

/-- At a point that is not the first the accumulator, holding `acc`, is left at the accumulate step's value of the two
    tiles and `acc`: the point's one store covers the accumulator, and its three loads read whole buffers. -/
theorem later_point (c : Dev nD) (i : grid0.Coords) (arg2 : Memref sig .tc .vmem S4x64x32x128 .f32) (harg2 : arg2.IsWhole)
    (arg3 : Memref sig .tc .vmem S4x64x32x128 .f32) (harg3 : arg3.IsWhole) (arg4 : Memref sig .tc .vmem S4x64 .f32) (harg4 : arg4.IsWhole)
    (hc0 : ¬cond0_0 i) (x0 x1 : Vec F S4x64x32x128 .f32) (acc : Vec F S4x64 .f32) :
    out0_B_2 c i arg2 harg2 arg3 harg3 arg4 harg4 hc0 x0 x1 acc = k0_pay2 x0 x1 acc := by
  unfold out0_B_2
  rw [View.read_writes_eq_canon _ _ _ (cover0_B_2 c i arg2 harg2 arg3 harg3 arg4 harg4 hc0 x0 x1 acc)]
  unfold kernelRun0_B
  dsimp only
  sl_unfold_words
  rw [View.canon_unit_zero origin2]
  simp only [View.readAt_eq_ld, harg2.read_unread, harg3.read_unread, harg4.read_unread,
    View.ld_unit_zero (S := S4x64x32x128) origin4, View.ld_unit_zero (S := S4x64) origin2]

/-- At the first point the accumulator is first set to the zero block, which the accumulate step then reads back: it is
    left at the accumulate step's value of the two tiles and the zero block, whatever it held before. -/
theorem first_point (c : Dev nD) (i : grid0.Coords) (arg2 : Memref sig .tc .vmem S4x64x32x128 .f32) (harg2 : arg2.IsWhole)
    (arg3 : Memref sig .tc .vmem S4x64x32x128 .f32) (harg3 : arg3.IsWhole) (arg4 : Memref sig .tc .vmem S4x64 .f32) (harg4 : arg4.IsWhole)
    (hc0 : cond0_0 i) (x0 x1 : Vec F S4x64x32x128 .f32) :
    out0_A_2 c i arg2 harg2 arg3 harg3 arg4 harg4 hc0 x0 x1 = k0_pay2 x0 x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S4x64) origin2, View.readCov_unit_zero (S := S4x64) _ origin2]
  simp only [View.readAt_eq_ld, harg2.read_unread, harg3.read_unread,
    View.ld_unit_zero (S := S4x64x32x128) origin4, View.ld_unit_zero (S := S4x64) origin2]

/-- Over the extended reals the two lane sums of a tile, columns first and rows second, are at (l, b) the double sum of
    the tile's cells. -/
theorem lane_sums (d : FVec Ideal S4x64x32x128 .f32) (l : Fin 4) (b : Fin 64) :
    multiReduction .add [2] S4x64
        (multiReduction .add [3] S4x64x32 d 0x00000000#32 reduces_S4x64x32x128_S4x64x32 (.inl rfl) rfl)
        0x00000000#32 reduces_S4x64x32_S4x64 (.inl rfl) rfl (ix2 l b)
      = ∑ h : Fin 32, ∑ w : Fin 128, d (ix4 l b h w) :=
  (LastAxis.multiReduction_add_last3_apply _ reduces_S4x64x32_S4x64 (.inl rfl) rfl l b).trans
    (Finset.sum_congr rfl fun h _ => LastAxis.multiReduction_add_last4_apply d reduces_S4x64x32x128_S4x64x32 (.inl rfl) rfl l b h)

/-- The accumulate step over the extended reals, at (l, b): the accumulator's entry plus the tile's double sum of the
    cellwise differences. -/
theorem accumulate_apply (x0 x1 : Vec Ideal S4x64x32x128 .f32) (acc : Vec Ideal S4x64 .f32) (l : Fin 4) (b : Fin 64) :
    k0_pay2 (F := Ideal) x0 x1 acc (ix2 l b)
      = acc (ix2 l b) + ∑ h : Fin 32, ∑ w : Fin 128, (x0 (ix4 l b h w) - x1 (ix4 l b h w)) := by
  show shapeCast S4x64 acc shapeCasts_S4x64_S4x64 (ix2 l b)
      + multiReduction (F := Ideal) .add [2] S4x64
          (multiReduction (F := Ideal) .add [3] S4x64x32 (subf (F := Ideal) x0 x1) 0x00000000#32 reduces_S4x64x32x128_S4x64x32 (.inl rfl) rfl)
          0x00000000#32 reduces_S4x64x32_S4x64 (.inl rfl) rfl (ix2 l b) = _
  rw [shapeCast_self, lane_sums]
  rfl

/-- The zero block the first point stores reads zero over the extended reals. -/
theorem zero_block_apply (j : S4x64.Idx) : k0_pay1 (F := Ideal) j = 0 :=
  Ideal.ofBits_zero_f32

end Cert.KernelIdeal.Accum

end
-- ==== Proof.TileSum.lean ====
/-
  Summing a 512 × 512 map tile by tile.

  The map is cut into a 16 × 4 grid of tiles, each 32 rows by 128 columns. Counting the tiles row-major, tile t = 4·i + j
  holds the rows 32·i, …, 32·i + 31 and the columns 128·j, …, 128·j + 127. Every cell of the map lies in exactly one
  tile, so in a commutative monoid the sum over the tiles of each tile's own sum is the sum over the whole map: the rows
  split as 512 = 16 · 32, the columns as 512 = 4 · 128, and the two middle sums change places. Nothing is asked of the
  summands: the law is commutativity and associativity of the addition alone, so it holds of extended reals at the
  infinities as well.
-/
import Mathlib.Algebra.BigOperators.Fin
import Mathlib.Algebra.BigOperators.Group.Finset.Basic
import Mathlib.Algebra.BigOperators.Group.Finset.Sigma

namespace TileSum

open Finset

variable {M : Type*} [AddCommMonoid M]

/-- A sum over a · b consecutive naturals, taken as a blocks of b. -/
theorem sum_range_blocks (a b : ℕ) (g : ℕ → M) :
    ∑ x ∈ range (a * b), g x = ∑ i ∈ range a, ∑ j ∈ range b, g (b * i + j) := by
  induction a with
  | zero => simp
  | succ a ih => rw [Nat.succ_mul, sum_range_add, ih, sum_range_succ, Nat.mul_comm a b]

/-- The sum over the 64 tiles of each tile's 32 × 128 cells is the sum over the 512 × 512 map (cells named by naturals). -/
theorem sum_tiles (f : ℕ → ℕ → M) :
    ∑ t ∈ range 64, ∑ h ∈ range 32, ∑ w ∈ range 128, f (32 * (t / 4) + h) (128 * (t % 4) + w)
      = ∑ r ∈ range 512, ∑ c ∈ range 512, f r c := by
  have tiles : ∑ t ∈ range 64, ∑ h ∈ range 32, ∑ w ∈ range 128, f (32 * (t / 4) + h) (128 * (t % 4) + w)
      = ∑ i ∈ range 16, ∑ j ∈ range 4, ∑ h ∈ range 32, ∑ w ∈ range 128,
          f (32 * ((4 * i + j) / 4) + h) (128 * ((4 * i + j) % 4) + w) :=
    sum_range_blocks 16 4 fun t => ∑ h ∈ range 32, ∑ w ∈ range 128, f (32 * (t / 4) + h) (128 * (t % 4) + w)
  have rows : ∑ r ∈ range 512, ∑ c ∈ range 512, f r c = ∑ i ∈ range 16, ∑ h ∈ range 32, ∑ c ∈ range 512, f (32 * i + h) c :=
    sum_range_blocks 16 32 fun r => ∑ c ∈ range 512, f r c
  have cols : ∀ r, ∑ c ∈ range 512, f r c = ∑ j ∈ range 4, ∑ w ∈ range 128, f r (128 * j + w) :=
    fun r => sum_range_blocks 4 128 (f r)
  rw [tiles, rows]
  refine sum_congr rfl fun i _ => ?_
  have tile_ij : ∀ j ∈ range 4,
      (∑ h ∈ range 32, ∑ w ∈ range 128, f (32 * ((4 * i + j) / 4) + h) (128 * ((4 * i + j) % 4) + w))
        = ∑ h ∈ range 32, ∑ w ∈ range 128, f (32 * i + h) (128 * j + w) := by
    intro j hj
    have hj4 : j < 4 := mem_range.mp hj
    rw [show (4 * i + j) / 4 = i by omega, show (4 * i + j) % 4 = j by omega]
  refine (sum_congr rfl tile_ij).trans ?_
  rw [sum_comm]
  exact sum_congr rfl fun h _ => (cols (32 * i + h)).symm

/-- A double sum over two initial segments of the naturals, indexed by `Fin`. -/
theorem sum_fin_fin (a b : ℕ) (F : ℕ → ℕ → M) :
    ∑ h : Fin a, ∑ w : Fin b, F h.val w.val = ∑ h ∈ range a, ∑ w ∈ range b, F h w :=
  (sum_congr rfl fun h _ => Fin.sum_univ_eq_sum_range (F h.val) b).trans
    (Fin.sum_univ_eq_sum_range (fun h => ∑ w ∈ range b, F h w) a)

/-- The tile law with the cells inside a tile and the cells of the map indexed by `Fin`. -/
theorem sum_tiles_fin (f : ℕ → ℕ → M) :
    ∑ t ∈ range 64, ∑ h : Fin 32, ∑ w : Fin 128, f (32 * (t / 4) + h.val) (128 * (t % 4) + w.val)
      = ∑ r : Fin 512, ∑ c : Fin 512, f r.val c.val :=
  ((sum_congr rfl fun t _ => sum_fin_fin 32 128 fun h w => f (32 * (t / 4) + h) (128 * (t % 4) + w)).trans
    (sum_tiles f)).trans (sum_fin_fin 512 512 f).symm

/-- Row h of tile t, as a row of the map (t read modulo the grid, so that every natural names a tile). -/
def tileRow (t : ℕ) (h : Fin 32) : Fin 512 := ⟨32 * (t / 4 % 16) + h.val, by have := h.isLt; omega⟩
/-- Column w of tile t, as a column of the map. -/
def tileCol (t : ℕ) (w : Fin 128) : Fin 512 := ⟨128 * (t % 4) + w.val, by have := w.isLt; omega⟩

/-- A function of the map's cells continued by zero off the map, so that naturals can name its cells. -/
def offMap (g : Fin 512 → Fin 512 → M) (r c : ℕ) : M := if h : r < 512 ∧ c < 512 then g ⟨r, h.1⟩ ⟨c, h.2⟩ else 0

theorem offMap_val (g : Fin 512 → Fin 512 → M) (r c : Fin 512) : offMap g r.val c.val = g r c :=
  dif_pos ⟨r.isLt, c.isLt⟩

/-- THE TILE LAW: a function of the map's cells, summed over the 64 tiles of each tile's cells, is summed over the map. -/
theorem sum_tiles_map (g : Fin 512 → Fin 512 → M) :
    ∑ t ∈ range 64, ∑ h : Fin 32, ∑ w : Fin 128, g (tileRow t h) (tileCol t w) = ∑ r : Fin 512, ∑ c : Fin 512, g r c := by
  refine ((sum_congr rfl fun t ht => sum_congr rfl fun h _ => sum_congr rfl fun w _ => ?_).trans
    (sum_tiles_fin (offMap g))).trans (sum_congr rfl fun r _ => sum_congr rfl fun c _ => offMap_val g r c)
  have ht' : t < 64 := mem_range.mp ht
  have hh := h.isLt
  have hw := w.isLt
  have hb : 32 * (t / 4) + h.val < 512 ∧ 128 * (t % 4) + w.val < 512 := by omega
  rw [offMap, dif_pos hb]
  exact congrArg₂ g (Fin.ext (by show 32 * (t / 4 % 16) + h.val = 32 * (t / 4) + h.val; omega)) (Fin.ext rfl)

end TileSum
-- ==== Proof.GridSum.lean ====
/-
  The accumulator over the whole grid, and what the kernel's program returns.

  Point t of the 16 × 4 grid (row-major: t = 4·i + j) is handed tile t of each input: rows 32·i … 32·i + 31 and columns
  128·j … 128·j + 127 of every [512, 512] map, all 4 × 64 maps at once. By what one point does to the accumulator, after
  point n entry (l, b) of the accumulator is the sum, over the tiles 0 … n, of the tile's sum of the cellwise
  differences of map (l, b): the first point starts from zero, every later point adds its tile's sum to what the point
  before left. Only the last point writes the accumulator back, and its block is the whole [4, 64] result array; so the
  array ends holding the sum over all 64 tiles, which by the tile law is the sum over the whole map. The lines of the
  program after the kernel then turn that array into the loss: negate, exponential, times ten, sum over the batch axis,
  divide by 64, sum over the region axis.
-/
import proofs.«105375_j44487271252553_1_alg».proof.Proof.BodyStep
import proofs.«105375_j44487271252553_1_alg».proof.Proof.TileSum
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ) (ρ : Dev nD → PrngReg)

/-! ## The inputs, their tiles, and where a tile's cells lie -/

/-- The two input arrays as the kernel finds them, and their tiles at a grid point, each at its literal shape. -/
abbrev map0 (c : Dev nD) : Vec Ideal S4x64x512x512 .f32 := V m c main_arg0
abbrev map1 (c : Dev nD) : Vec Ideal S4x64x512x512 .f32 := V m c main_arg1
abbrev tile0 (c : Dev nD) (t : Fin cfg0.N) : Vec Ideal S4x64x32x128 .f32 := iblk m c 0 t
abbrev tile1 (c : Dev nD) (t : Fin cfg0.N) : Vec Ideal S4x64x32x128 .f32 := iblk m c 1 t

/-- Point t's block of either input is block (0, 0, t / 4, t % 4): decided over the 64 points. -/
theorem block_of_point0 : ∀ t : Fin cfg0.N,
    win0_0.index t 0 = 0 ∧ win0_0.index t 1 = 0 ∧ win0_0.index t 2 = t.val / 4 ∧ win0_0.index t 3 = t.val % 4 :=
  (by decide +kernel : ∀ t : Fin grid0.N,
    win0_0.index t 0 = 0 ∧ win0_0.index t 1 = 0 ∧ win0_0.index t 2 = t.val / 4 ∧ win0_0.index t 3 = t.val % 4)
theorem block_of_point1 : ∀ t : Fin cfg0.N,
    win0_1.index t 0 = 0 ∧ win0_1.index t 1 = 0 ∧ win0_1.index t 2 = t.val / 4 ∧ win0_1.index t 3 = t.val % 4 :=
  (by decide +kernel : ∀ t : Fin grid0.N,
    win0_1.index t 0 = 0 ∧ win0_1.index t 1 = 0 ∧ win0_1.index t 2 = t.val / 4 ∧ win0_1.index t 3 = t.val % 4)

/-- Cell (h, w) of tile t of map (l, b) of the first input is cell (row h of tile t, column w of tile t) of that map. -/
theorem tile0_apply (c : Dev nD) (t : Fin cfg0.N) (l : Fin 4) (b : Fin 64) (h : Fin 32) (w : Fin 128) :
    tile0 m c t (ix4 l b h w) = map0 m c (ix4 l b (TileSum.tileRow t.val h) (TileSum.tileCol t.val w)) := by
  obtain ⟨i0, i1, i2, i3⟩ := block_of_point0 t
  have hN : t.val < 64 := lt_of_lt_of_eq t.isLt (show cfg0.N = 64 from N_0)
  show iblk m c 0 t (ix4 l b h w) = _
  unfold iblk
  rw [View.read_apply]
  show V m c main_arg0 _ = V m c main_arg0 _
  congr 1
  funext a
  apply Fin.ext
  match a with
  | ⟨0, _⟩ => show win0_0.index t 0 * 4 + 1 * l.val = l.val; rw [i0]; omega
  | ⟨1, _⟩ => show win0_0.index t 1 * 64 + 1 * b.val = b.val; rw [i1]; omega
  | ⟨2, _⟩ => show win0_0.index t 2 * 32 + 1 * h.val = 32 * (t.val / 4 % 16) + h.val; rw [i2]; omega
  | ⟨3, _⟩ => show win0_0.index t 3 * 128 + 1 * w.val = 128 * (t.val % 4) + w.val; rw [i3]; omega

/-- The same of the second input. -/
theorem tile1_apply (c : Dev nD) (t : Fin cfg0.N) (l : Fin 4) (b : Fin 64) (h : Fin 32) (w : Fin 128) :
    tile1 m c t (ix4 l b h w) = map1 m c (ix4 l b (TileSum.tileRow t.val h) (TileSum.tileCol t.val w)) := by
  obtain ⟨i0, i1, i2, i3⟩ := block_of_point1 t
  have hN : t.val < 64 := lt_of_lt_of_eq t.isLt (show cfg0.N = 64 from N_0)
  show iblk m c 1 t (ix4 l b h w) = _
  unfold iblk
  rw [View.read_apply]
  show V m c main_arg1 _ = V m c main_arg1 _
  congr 1
  funext a
  apply Fin.ext
  match a with
  | ⟨0, _⟩ => show win0_1.index t 0 * 4 + 1 * l.val = l.val; rw [i0]; omega
  | ⟨1, _⟩ => show win0_1.index t 1 * 64 + 1 * b.val = b.val; rw [i1]; omega
  | ⟨2, _⟩ => show win0_1.index t 2 * 32 + 1 * h.val = 32 * (t.val / 4 % 16) + h.val; rw [i2]; omega
  | ⟨3, _⟩ => show win0_1.index t 3 * 128 + 1 * w.val = 128 * (t.val % 4) + w.val; rw [i3]; omega

/-! ## The running sum -/

/-- The difference of the two inputs at cell (r, q) of map (l, b). -/
def cellDiff (c : Dev nD) (l : Fin 4) (b : Fin 64) (r q : Fin 512) : EReal :=
  map0 m c (ix4 l b r q) - map1 m c (ix4 l b r q)

/-- The sum of the cellwise differences of map (l, b) over tile t. -/
def tileSum (c : Dev nD) (t : ℕ) (l : Fin 4) (b : Fin 64) : EReal :=
  ∑ h : Fin 32, ∑ w : Fin 128, cellDiff m c l b (TileSum.tileRow t h) (TileSum.tileCol t w)

/-- What a point's two lane sums make of its two tiles is that tile's sum. -/
theorem tile_sum_eq (c : Dev nD) (t : Fin cfg0.N) (l : Fin 4) (b : Fin 64) :
    (∑ h : Fin 32, ∑ w : Fin 128, (tile0 m c t (ix4 l b h w) - tile1 m c t (ix4 l b h w))) = tileSum m c t.val l b :=
  Finset.sum_congr rfl fun h _ => Finset.sum_congr rfl fun w _ => by
    rw [tile0_apply, tile1_apply]; rfl

/-- After point n the accumulator's entry (l, b) is the sum of the tile sums of the tiles 0 … n: by induction on the
    point, the first point adding its tile's sum to zero, a later point to what the point before left. -/
theorem running_sum (c : Dev nD) : ∀ (n : ℕ) (hn : n < cfg0.N) (l : Fin 4) (b : Fin 64),
    (outsAt0 m c n hn : Vec Ideal S4x64 .f32) (ix2 l b) = ∑ t ∈ Finset.range (n + 1), tileSum m c t l b
  | 0, hn, l, b => by
    refine (congrFun ((outsAt0_A m c ⟨0, hn⟩ rfl).trans
      (first_point (F := Ideal) c _ _ _ _ _ _ _ _ _ _)) (ix2 l b)).trans ?_
    refine (accumulate_apply (tile0 m c ⟨0, hn⟩) (tile1 m c ⟨0, hn⟩) _ l b).trans ?_
    rw [zero_block_apply, zero_add, Finset.sum_range_one]
    exact tile_sum_eq m c ⟨0, hn⟩ l b
  | n + 1, hn, l, b => by
    have hN : cfg0.N = 64 := N_0
    have hB : ¬(⟨n + 1, hn⟩ : Fin cfg0.N).val % 64 = 0 := by dsimp only; omega
    refine (congrFun ((outsAt0_B m c ⟨n + 1, hn⟩ hB).trans
      (later_point (F := Ideal) c _ _ _ _ _ _ _ _ _ _ _)) (ix2 l b)).trans ?_
    refine (accumulate_apply (tile0 m c ⟨n + 1, hn⟩) (tile1 m c ⟨n + 1, hn⟩) _ l b).trans ?_
    rw [Finset.sum_range_succ _ (n + 1)]
    exact congrArg₂ (· + ·) (running_sum c n _ l b) (tile_sum_eq m c ⟨n + 1, hn⟩ l b)

/-! ## The result array -/

theorem last_lt : 63 < cfg0.N := by rw [show cfg0.N = 64 from N_0]; decide
/-- The last point of the grid, the only one that writes the accumulator back. -/
abbrev lastPoint : Fin cfg0.N := ⟨63, last_lt⟩

/-- What the accumulator holds after the last point, as contents of the result array. -/
abbrev total (c : Dev nD) : Buf (Elt Ideal) ((c : Thread nD τ).loc main_v0) := outsAt0 m c 63 last_lt

/-- Its entry (l, b) is the sum of the cellwise differences over the whole of map (l, b): the running sum after the
    last point, by the tile law. -/
theorem total_apply (c : Dev nD) (l : Fin 4) (b : Fin 64) :
    total m c (ix2 l b) = ∑ r : Fin 512, ∑ q : Fin 512, cellDiff m c l b r q :=
  (running_sum m c 63 last_lt l b).trans (TileSum.sum_tiles_map (cellDiff m c l b))

/-- The one write-back writes it: the last point's block of the [4, 64] array, read through zero offsets, is the array. -/
theorem flushed_total (c : Dev nD) (t : Fin cfg0.N) (hf : (cfg0.win 2).flush t = true) :
    (dats m 0 c).flushed 2 t = ((cfg0.win 2).blk t).view.read (Elt Ideal) (total m c) := by
  have hN : cfg0.N = 64 := N_0
  have h63 : t.val = 63 := by have := (flush0_2 t).mp hf; have := t.isLt; omega
  obtain rfl : t = lastPoint := Fin.ext h63
  show (cfg0.win 2).cut (grid0.coords lastPoint) ((dats m 0 c).after 2 lastPoint) = _
  rw [after0_2]
  have hz' : (fun a => win0_2.index lastPoint a * main_v0.ty.shape.size a) = fun _ => 0 :=
    funext fun a => by fin_cases a <;> decide +kernel
  exact (Memref.read_access_unit_zero (Elt Ideal) main_v0 hz' (fun a => by rw [congrFun hz' a]; simp) (total m c)).symm

/-- So the result array ends holding it: the last point's block covers the array. -/
theorem result_array (c : Dev nD) : (dats m 0 c).arrAt 2 cfg0.N = total m c :=
  (dats m 0 c).arrAt_eq_of_cover 2 (total m c) (flushed_total m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 4 := (i 0).isLt
      have h1 : (i 1 : Nat) < 64 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [show win0_2.index lastPoint 0 * win0_2.size 0 = 0 from by decide +kernel,
          show win0_2.xsize (grid0.coords lastPoint) 0 = 4 from by decide +kernel]
        omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [show win0_2.index lastPoint 1 * win0_2.size 1 = 0 from by decide +kernel,
          show win0_2.xsize (grid0.coords lastPoint) 1 = 64 from by decide +kernel]
        omega⟩

/-! ## The lines after the kernel -/

/-- The loss of a [4, 64] array of summed differences d: Σ_l ( Σ_b 10 · exp (− d (l, b)) ) / 64, each sum from zero. -/
def lossOf (d : FVec Ideal S4x64 .f32) : FVec Ideal S_ .f32 :=
  Host.reduceAdd (F := Ideal)
    (Host.divf (F := Ideal)
      (Host.reduceAdd (F := Ideal)
        (mulf (F := Ideal) (broadcastInDim S4x64 ![] bcast_S_S4x64 (constant (F := Ideal) S_ .f32 0x41200000#32))
          (Host.exp (F := Ideal) (Host.negf (F := Ideal) d)))
        (constant (F := Ideal) S_ .f32 0x00000000#32) reducesTo_S4x64_S4_d1 h_S_)
      (broadcastInDim S4 ![] bcast_S_S4 (constant (F := Ideal) S_ .f32 0x42800000#32)))
    (constant (F := Ideal) S_ .f32 0x00000000#32) reducesTo_S4_S_d0 h_S_

/-- The program's result after its last line is the loss of the result array. -/
theorem tail_eq (c : Dev nD) :
    Pipeline.afterTail₀ cfgs (dats m) 0 (V0 m) [hostOps1] c main_v8 = lossOf (total m c) := by
  unfold Pipeline.afterTail₀
  show StableHlo.after hostOps1 _ (Proc.devRef .tc main_v8) = _
  after_results
  exact congrArg lossOf
    ((Pipeline.withArrays_arr spec0 launch0.win.arr_inj c (V0 m c) (fun w => (dats m 0 c).arrAt w (cfgs 0).N) 2).trans
      (result_array m c))

/-- The kernel's program, run: it ends with the loss of the accumulated array in its result and its two inputs as
    they were. -/
theorem run : θ_run defs (onTc (τ := τ) (main (F := Ideal))) ⟨m, fun _ => 0, ρ⟩ fun r => ∀ c : Dev nD,
      r.2.mem ((c.tc : Thread nD τ).loc main_v8) = lossOf (total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Accum

end
-- ==== Proof.RefSum.lean ====
/-
  The reference side: the same loss of the same [4, 64] array.

  The reference subtracts the two inputs cell by cell, sums each [512, 512] map over both of its axes at once, from zero,
  and then takes the loss by the very lines the kernel's program ends with. Over the extended reals the host's sum at
  (l, b) is zero plus the sum of the operand over the indices that drop to (l, b) when the two map axes are removed;
  those indices are exactly (l, b, r, q) for the 512 × 512 cells (r, q), so the sum is the double sum over the map's
  cells — the array the kernel's accumulator ends at. Equal arrays have equal losses.
-/
import proofs.«105375_j44487271252553_1_alg».proof.Defs
import proofs.«105375_j44487271252553_1_alg».proof.Proof.Gen.ReferenceIdeal.Run
import proofs.«105375_j44487271252553_1_alg».proof.Proof.GridSum
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.WholeMap

open Cert.ReferenceIdeal Cert.ReferenceIdeal.Gen

/-- An index of the [4, 64, 512, 512] array drops to (l, b) exactly when it is (l, b, r, q) for its own last two
    coordinates. -/
theorem drop_eq_iff (i : S4x64x512x512.Idx) (l : Fin 4) (b : Fin 64) :
    reducesTo_S4x64x512x512_S4x64_d2_3.drop i = ix2 l b ↔ i = ix4 l b (i 2) (i 3) := by
  constructor
  · intro h
    have e0 : (i 0).val = l.val := congrArg Fin.val (congrFun h 0)
    have e1 : (i 1).val = b.val := congrArg Fin.val (congrFun h 1)
    funext a
    match a with
    | ⟨0, _⟩ => exact Fin.ext e0
    | ⟨1, _⟩ => exact Fin.ext e1
    | ⟨2, _⟩ => rfl
    | ⟨3, _⟩ => rfl
  · intro h
    rw [h]
    funext a
    match a with
    | ⟨0, _⟩ => rfl
    | ⟨1, _⟩ => rfl

/-- The cells of map (l, b), as indices of the array. -/
def cellsOf (l : Fin 4) (b : Fin 64) : Fin 512 × Fin 512 ↪ S4x64x512x512.Idx :=
  ⟨fun p => ix4 l b p.1 p.2, fun p p' h => Prod.ext (congrFun h 2) (congrFun h 3)⟩

/-- The indices the host's sum adds up at (l, b) are the cells of map (l, b). -/
theorem summed_at (l : Fin 4) (b : Fin 64) :
    Finset.univ.filter (fun i : S4x64x512x512.Idx => reducesTo_S4x64x512x512_S4x64_d2_3.drop i = ix2 l b)
      = Finset.univ.map (cellsOf l b) := by
  ext i
  simp only [Finset.mem_filter, Finset.mem_univ, true_and, Finset.mem_map, cellsOf, Function.Embedding.coeFn_mk]
  rw [drop_eq_iff]
  exact ⟨fun h => ⟨(i 2, i 3), h.symm⟩, fun ⟨p, hp⟩ => by subst hp; rfl⟩

/-- The reference's [4, 64] array of summed differences, of its two inputs. -/
def wholeSum (a0 a1 : FVec Ideal S4x64x512x512 .f32) : FVec Ideal S4x64 .f32 :=
  Host.reduceAdd (F := Ideal) (subf (F := Ideal) a0 a1) (constant (F := Ideal) S_ .f32 0x00000000#32)
    reducesTo_S4x64x512x512_S4x64_d2_3 h_S_

/-- Over the extended reals its entry (l, b) is the double sum of the cellwise differences over map (l, b). -/
theorem wholeSum_apply (a0 a1 : FVec Ideal S4x64x512x512 .f32) (l : Fin 4) (b : Fin 64) :
    wholeSum a0 a1 (ix2 l b) = ∑ r : Fin 512, ∑ q : Fin 512, (a0 (ix4 l b r q) - a1 (ix4 l b r q)) := by
  unfold wholeSum
  simp only [Host.reduceAdd, Ideal.hostReduceAdd_def]
  unfold Ideal.hostReduceAdd
  rw [summed_at, Finset.sum_map, Fintype.sum_prod_type]
  show Ideal.ofBits .f32 0x00000000#32 + _ = _
  rw [Ideal.ofBits_zero_f32, zero_add]
  rfl

/-- The reference's result, of inputs that are the kernel's, is the loss of the array the kernel's accumulator ends
    at: the two arrays agree entry by entry, both being the double sum over the map. -/
theorem loss_eq (m : (ℓ : Loc Cert.KernelIdeal.nD Cert.KernelIdeal.τ Cert.KernelIdeal.sig) → Buf (Elt Ideal) ℓ)
    (c : Dev Cert.KernelIdeal.nD) :
    Cert.KernelIdeal.Accum.lossOf
        (wholeSum (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))
      = Cert.KernelIdeal.Accum.lossOf (Cert.KernelIdeal.Accum.total m c) := by
  refine congrArg Cert.KernelIdeal.Accum.lossOf (funext fun j => ?_)
  obtain ⟨l, b, rfl⟩ : ∃ (l : Fin 4) (b : Fin 64), j = ix2 l b := ⟨j 0, j 1, eq_ix2 j⟩
  exact (wholeSum_apply _ _ l b).trans (Cert.KernelIdeal.Accum.total_apply m c l b).symm

end Cert.ReferenceIdeal.WholeMap

end
-- ==== Proof.lean ====
/-
  Kernel and reference compute one loss.

  Both programs take two arrays of 4 × 64 maps of 512 × 512 cells. Write d (l, b) for the sum over map (l, b) of the
  cellwise difference of the two inputs. The reference forms d by one sum over both map axes; the kernel forms it tile by
  tile, a 16 × 4 grid of 32 × 128 tiles, each tile summed over its columns and then its rows and added to an accumulator
  that starts at zero at the first tile and is written out after the last. Over the extended reals addition is
  commutative and associative at every value, the infinities included, and every cell lies in exactly one tile; so the
  two arrays are equal entry by entry (TileSum: the tile law; BodyStep: what one tile adds; GridSum: the accumulator after
  every tile, by induction; RefSum: the reference's sum over the cells of a map). Both programs then apply the same
  lines to d — Σ_l ( Σ_b 10 · exp (− d (l, b)) ) / 64 — so their results are equal. No finiteness of the inputs is used.

  The three programs run, without fault, leaving their inputs as they were: for the kernel and its idealization this is
  their run through the grid, for the reference its straight line of host operations. The idealization rewrote nothing
  of the kernel, so there is nothing to preserve.
-/
import proofs.«105375_j44487271252553_1_alg».proof.Defs
import proofs.«105375_j44487271252553_1_alg».proof.Proof.Gen.Kernel
import proofs.«105375_j44487271252553_1_alg».proof.Proof.Gen.Kernel.Frame
import proofs.«105375_j44487271252553_1_alg».proof.Proof.Gen.KernelIdeal
import proofs.«105375_j44487271252553_1_alg».proof.Proof.Gen.KernelIdeal.Frame
import proofs.«105375_j44487271252553_1_alg».proof.Proof.Gen.ReferenceIdeal
import proofs.«105375_j44487271252553_1_alg».proof.Proof.Gen.ReferenceIdeal.Run
import proofs.«105375_j44487271252553_1_alg».proof.Proof.Gen.Pre_finite_inputs
import proofs.«105375_j44487271252553_1_alg».proof.Proof.GridSum
import proofs.«105375_j44487271252553_1_alg».proof.Proof.RefSum
import Idealize.ShloMosaic.Adequacy
import Idealize.ShloMosaic.Init

noncomputable section

namespace Cert.Proof

open Idealize.ShloMosaic Idealize.SL.Sem

/-- The kernel as printed runs through its grid and its last lines, its inputs unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference's straight line of host operations runs, its inputs unchanged. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Over the extended reals, from inputs that agree, the kernel's program ends at the loss of its accumulated array
    and the reference at the loss of its summed array: the same array, hence the same loss. -/
theorem algebraic : Cert.algebraic_KernelIdeal_ReferenceIdeal := by
  intro m ρ m' ρ' _ hagree
  refine ⟨fun c => Cert.KernelIdeal.Accum.lossOf (Cert.KernelIdeal.Accum.total m c),
    Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.WholeMap.loss_eq m c

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
